-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_v9) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x512 : Shape := ⟨2, ![256, 512]⟩
abbrev S2048x512 : Shape := ⟨2, ![2048, 512]⟩
abbrev S2048 : Shape := ⟨1, ![2048]⟩
abbrev S256x100x2048 : Shape := ⟨3, ![256, 100, 2048]⟩
abbrev S_ : Shape := ⟨0, ![]⟩

class Facts : Prop where
  bcast_S_S256x512 : S_.BroadcastsInDim S256x512 (![] : Fin 0 → Fin S256x512.rank)
  reducesTo_S256x512_S_d0_1 : S256x512.ReducesTo [0, 1] S_
  h_S_ : 0 < S_.numel
  bcast_S_S2048x512 : S_.BroadcastsInDim S2048x512 (![] : Fin 0 → Fin S2048x512.rank)
  reducesTo_S2048x512_S_d0_1 : S2048x512.ReducesTo [0, 1] S_
  bcast_S_S2048 : S_.BroadcastsInDim S2048 (![] : Fin 0 → Fin S2048.rank)
  reducesTo_S2048_S_d0 : S2048.ReducesTo [0] S_
  bcast_S_S256x100x2048 : S_.BroadcastsInDim S256x100x2048 (![] : Fin 0 → Fin S256x100x2048.rank)
  reducesTo_S256x100x2048_S_d0_1_2 : S256x100x2048.ReducesTo [0, 1, 2] S_

variable [Facts]

def fn_part1 {F : FTy → Type} [FloatOps F] (main_v13 : IVec S_ 1) (main_v16 : IVec S256x100x2048 1) : IVec S_ 1 :=
  let main_c_5 : IVec S_ 1 := constantI S_ 1 1#1
  let main_v17 : IVec S_ 1 := (fun x v => Host.reduce IntOp.andi x v reducesTo_S256x100x2048_S_d0_1_2 h_S_) main_v16 main_c_5
  let main_v18 : IVec S_ 1 := andi main_v13 main_v17
  main_v18

def fn {F : FTy → Type} [FloatOps F] (main_arg0 : FVec F S256x512 .f32) (main_arg1 : FVec F S2048x512 .f32) (main_arg2 : FVec F S2048 .f32) (main_arg3 : FVec F S256x100x2048 .f32) : IVec S_ 1 :=
  let main_v0 : FVec F S256x512 .f32 := Host.absf main_arg0
  let main_cst : FVec F S_ .f32 := constant S_ .f32 0x7F800000#32
  let main_v1 : FVec F S256x512 .f32 := broadcastInDim S256x512 ![] bcast_S_S256x512 main_cst
  let main_v2 : IVec S256x512 1 := cmpf .olt main_v0 main_v1
  let main_c : IVec S_ 1 := constantI S_ 1 1#1
  let main_v3 : IVec S_ 1 := (fun x v => Host.reduce IntOp.andi x v reducesTo_S256x512_S_d0_1 h_S_) main_v2 main_c
  let main_v4 : FVec F S2048x512 .f32 := Host.absf main_arg1
  let main_cst_0 : FVec F S_ .f32 := constant S_ .f32 0x7F800000#32
  let main_v5 : FVec F S2048x512 .f32 := broadcastInDim S2048x512 ![] bcast_S_S2048x512 main_cst_0
  let main_v6 : IVec S2048x512 1 := cmpf .olt main_v4 main_v5
  let main_c_1 : IVec S_ 1 := constantI S_ 1 1#1
  let main_v7 : IVec S_ 1 := (fun x v => Host.reduce IntOp.andi x v reducesTo_S2048x512_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  let main_v14 : FVec F S256x100x2048 .f32 := Host.absf main_arg3
  let main_cst_4 : FVec F S_ .f32 := constant S_ .f32 0x7F800000#32
  let main_v15 : FVec F S256x100x2048 .f32 := broadcastInDim S256x100x2048 ![] bcast_S_S256x100x2048 main_cst_4
  let main_v16 : IVec S256x100x2048 1 := cmpf .olt main_v14 main_v15
  fn_part1 (F := F) main_v13 main_v16
-- ==== Kernel.lean ====
abbrev S256x512 : Shape := ⟨2, ![256, 512]⟩
abbrev S2048x512 : Shape := ⟨2, ![2048, 512]⟩
abbrev S2048 : Shape := ⟨1, ![2048]⟩
abbrev S256x100x2048 : Shape := ⟨3, ![256, 100, 2048]⟩
abbrev S256x2048 : Shape := ⟨2, ![256, 2048]⟩
abbrev S8x512 : Shape := ⟨2, ![8, 512]⟩
abbrev S8x100x2048 : Shape := ⟨3, ![8, 100, 2048]⟩
abbrev S8x2048 : Shape := ⟨2, ![8, 2048]⟩
abbrev S1x2048 : Shape := ⟨2, ![1, 2048]⟩
abbrev S8x1x2048 : Shape := ⟨3, ![8, 1, 2048]⟩

abbrev nBuf : Space → Nat
  | .hbm => 6
  | .vmem => 10
  | .smem => 0
  | _ => 0

abbrev bufTy : (tb : Table) → Fin (tcTables nBuf tb) → BufTy
  | .hbm, ⟨0, _⟩ => ⟨S256x512, .f32⟩
  | .hbm, ⟨1, _⟩ => ⟨S2048x512, .f32⟩
  | .hbm, ⟨2, _⟩ => ⟨S2048, .f32⟩
  | .hbm, ⟨3, _⟩ => ⟨S256x100x2048, .f32⟩
  | .hbm, ⟨4, _⟩ => ⟨S256x100x2048, .f32⟩
  | .hbm, ⟨5, _⟩ => ⟨S256x2048, .f32⟩
  | .local _ .vmem, ⟨0, _⟩ => ⟨S8x512, .f32⟩
  | .local _ .vmem, ⟨1, _⟩ => ⟨S8x512, .f32⟩
  | .local _ .vmem, ⟨2, _⟩ => ⟨S2048x512, .f32⟩
  | .local _ .vmem, ⟨3, _⟩ => ⟨S2048, .f32⟩
  | .local _ .vmem, ⟨4, _⟩ => ⟨S8x100x2048, .f32⟩
  | .local _ .vmem, ⟨5, _⟩ => ⟨S8x100x2048, .f32⟩
  | .local _ .vmem, ⟨6, _⟩ => ⟨S8x100x2048, .f32⟩
  | .local _ .vmem, ⟨7, _⟩ => ⟨S8x100x2048, .f32⟩
  | .local _ .vmem, ⟨8, _⟩ => ⟨S8x2048, .f32⟩
  | .local _ .vmem, ⟨9, _⟩ => ⟨S8x2048, .f32⟩
  | _, _ => ⟨S256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8x100x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x100x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  inb_S8x512_S8x512_0_0 : ∀ a, (![0, 0] : Fin 2 → Nat) a + S8x512.size a ≤ S8x512.size a
  h_S8x512 : 0 < S8x512.numel
  inb_S2048x512_S2048x512_0_0 : ∀ a, (![0, 0] : Fin 2 → Nat) a + S2048x512.size a ≤ S2048x512.size a
  h_S2048x512 : 0 < S2048x512.numel
  inb_S2048_S2048_0 : ∀ a, (![0] : Fin 1 → Nat) a + S2048.size a ≤ S2048.size a
  h_S2048 : 0 < S2048.numel
  shapeCasts_S2048_S1x2048 : S2048.ShapeCasts S1x2048
  broadcasts_S1x2048_S8x2048 : S1x2048.Broadcasts S8x2048
  inb_S8x2048_S8x2048_0_0 : ∀ a, (![0, 0] : Fin 2 → Nat) a + S8x2048.size a ≤ S8x2048.size a
  h_S8x2048 : 0 < S8x2048.numel
  inb_S8x100x2048_S8x100x2048_0_0_0 : ∀ a, (![0, 0, 0] : Fin 3 → Nat) a + S8x100x2048.size a ≤ S8x100x2048.size a
  h_S8x100x2048 : 0 < S8x100x2048.numel
  shapeCasts_S8x2048_S8x1x2048 : S8x2048.ShapeCasts S8x1x2048
  broadcasts_S8x1x2048_S8x100x2048 : S8x1x2048.Broadcasts S8x100x2048
  natLt_1_32 : 1 < 32
  dot_S8x512_S2048x512_S8x2048_1_1_0_0_n_n_wf : DotDims.WF S8x512 S2048x512 S8x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x512.size a ≤ S256x512.size a
  hwx0_0 : ∀ i : grid0.Coords, EltTy.bits .f32 = 32 ∨ (Rect.block (s := S256x512) S8x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x512.size a ≤ S2048x512.size a
  hwx0_1 : ∀ i : grid0.Coords, EltTy.bits .f32 = 32 ∨ (Rect.block (s := S2048x512) S2048x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048.size a ≤ S2048.size a
  hwx0_2 : ∀ i : grid0.Coords, EltTy.bits .f32 = 32 ∨ (Rect.block (s := S2048) S2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x100x2048.size a ≤ S256x100x2048.size a
  hwx0_3 : ∀ i : grid0.Coords, EltTy.bits .f32 = 32 ∨ (Rect.block (s := S256x100x2048) S8x100x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x100x2048.size a ≤ S256x100x2048.size a
  hwx0_4 : ∀ i : grid0.Coords, EltTy.bits .f32 = 32 ∨ (Rect.block (s := S256x100x2048) S8x100x2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8x2048.size a ≤ S256x2048.size a
  hwx0_5 : ∀ i : grid0.Coords, EltTy.bits .f32 = 32 ∨ (Rect.block (s := S256x2048) S8x2048.size (cc0_transform_5 i) (hinb0_5 i)).WholeWords (EltTy.packing .f32)

variable [Facts₀]

def dot_S8x512_S2048x512_S8x2048_1_1_0_0_n_n : DotDims S8x512 S2048x512 S8x2048 where
  lhsContracting := [1]
  rhsContracting := [1]
  lhsNonContracting := [0]
  rhsNonContracting := [0]
  lhsBatch := []
  rhsBatch := []
  wf := dot_S8x512_S2048x512_S8x2048_1_1_0_0_n_n_wf

abbrev win0_0 : Pipeline.Window sig grid0 :=
  Pipeline.Window.ofSpec (Memref.whole main_arg0) S8x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S8x100x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_0) S8x100x2048.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_1) S8x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S256x512 : Shape := ⟨2, ![256, 512]⟩
abbrev S2048x512 : Shape := ⟨2, ![2048, 512]⟩
abbrev S2048 : Shape := ⟨1, ![2048]⟩
abbrev S256x100x2048 : Shape := ⟨3, ![256, 100, 2048]⟩
abbrev S256x2048 : Shape := ⟨2, ![256, 2048]⟩
abbrev S1x2048 : Shape := ⟨2, ![1, 2048]⟩
abbrev S_ : Shape := ⟨0, ![]⟩
abbrev S256x1x2048 : Shape := ⟨3, ![256, 1, 2048]⟩

abbrev nBuf : Space → Nat
  | .hbm => 20
  | .vmem => 0
  | .smem => 0
  | _ => 0

abbrev bufTy : (tb : Table) → Fin (tcTables nBuf tb) → BufTy
  | .hbm, ⟨0, _⟩ => ⟨S256x512, .f32⟩
  | .hbm, ⟨1, _⟩ => ⟨S2048x512, .f32⟩
  | .hbm, ⟨2, _⟩ => ⟨S2048, .f32⟩
  | .hbm, ⟨3, _⟩ => ⟨S256x100x2048, .f32⟩
  | .hbm, ⟨4, _⟩ => ⟨S256x2048, .f32⟩
  | .hbm, ⟨5, _⟩ => ⟨S1x2048, .f32⟩
  | .hbm, ⟨6, _⟩ => ⟨S256x2048, .f32⟩
  | .hbm, ⟨7, _⟩ => ⟨S256x2048, .f32⟩
  | .hbm, ⟨8, _⟩ => ⟨S256x2048, .f32⟩
  | .hbm, ⟨9, _⟩ => ⟨S256x2048, .f32⟩
  | .hbm, ⟨10, _⟩ => ⟨S_, .f32⟩
  | .hbm, ⟨11, _⟩ => ⟨S256x2048, .f32⟩
  | .hbm, ⟨12, _⟩ => ⟨S256x2048, .f32⟩
  | .hbm, ⟨13, _⟩ => ⟨S_, .f32⟩
  | .hbm, ⟨14, _⟩ => ⟨S256x2048, .f32⟩
  | .hbm, ⟨15, _⟩ => ⟨S256x2048, .f32⟩
  | .hbm, ⟨16, _⟩ => ⟨S256x1x2048, .f32⟩
  | .hbm, ⟨17, _⟩ => ⟨S256x100x2048, .f32⟩
  | .hbm, ⟨18, _⟩ => ⟨S256x100x2048, .i1⟩
  | .hbm, ⟨19, _⟩ => ⟨S256x100x2048, .f32⟩
  | _, _ => ⟨S256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]

class Facts₀ : Prop where
  bcast_S2048_S1x2048_1 : S2048.BroadcastsInDim S1x2048 (![1] : Fin 1 → Fin S1x2048.rank)
  bcast_S1x2048_S256x2048_0_1 : S1x2048.BroadcastsInDim S256x2048 (![0, 1] : Fin 2 → Fin S256x2048.rank)
  bcast_S_S256x2048 : S_.BroadcastsInDim S256x2048 (![] : Fin 0 → Fin S256x2048.rank)
  bcast_S256x2048_S256x1x2048_0_2 : S256x2048.BroadcastsInDim S256x1x2048 (![0, 2] : Fin 2 → Fin S256x1x2048.rank)
  bcast_S256x1x2048_S256x100x2048_0_1_2 : S256x1x2048.BroadcastsInDim S256x100x2048 (![0, 1, 2] : Fin 3 → Fin S256x100x2048.rank)
  dot_S256x512_S2048x512_S256x2048_1_1_0_0_n_n_wf : DotDims.WF S256x512 S2048x512 S256x2048 [1] [1] [0] [0] [] []

variable [Facts₀]

def dot_S256x512_S2048x512_S256x2048_1_1_0_0_n_n : DotDims S256x512 S2048x512 S256x2048 where
  lhsContracting := [1]
  rhsContracting := [1]
  lhsNonContracting := [0]
  rhsNonContracting := [0]
  lhsBatch := []
  rhsBatch := []
  wf := dot_S256x512_S2048x512_S256x2048_1_1_0_0_n_n_wf

class Facts : Prop extends Facts₀ where

variable [Facts]
-- ==== Proof.Spec.lean ====
/-
  The spike encoder as mathematics, with no program in sight.

  Inputs: x [256, 512], W [2048, 512], b [2048], u [256, 100, 2048], all extended reals.
  The pre-activation of sample r and neuron n is the inner product of row r of x with row n of W, plus b n;
  the rate is its logistic, 1 / (1 + e^(-z)) with the conventions of the extended reals at the infinities;
  the spike at (r, t, n) is 1 when u (r, t, n) lies strictly below the rate of (r, n) and 0 otherwise.

  Two small facts join the two programs' spellings of these functions:
  a one-bit word widened by zeros to 32 bits and read as a signed integer is the bit read as a natural number
  (one side converts the comparison's bit directly, the other widens it first), and the quotient
  1 / (1 + e^(-z)) spelt with the binary word of 1.0 is the logistic function (one side has the logistic as
  one operation, the other as negation, exponential, sum and quotient).
-/
import Idealize.ShloMosaic.PureOps.Ideal
import Idealize.ShloMosaic.Lib.ValueIdx

noncomputable section

open scoped BigOperators

namespace Cert.SpikeSpec

open Idealize.ShloMosaic Idealize.ShloMosaic.ValueIdx

abbrev Sx : Shape := ⟨2, ![256, 512]⟩
abbrev Sw : Shape := ⟨2, ![2048, 512]⟩
abbrev Sb : Shape := ⟨1, ![2048]⟩
abbrev Su : Shape := ⟨3, ![256, 100, 2048]⟩
abbrev Sr : Shape := ⟨2, ![256, 2048]⟩

/-- The pre-activation of sample `r` and neuron `n`: row `r` of `x` against row `n` of `W`, plus the bias. -/
def affine (x : Sx.Idx → EReal) (W : Sw.Idx → EReal) (b : Sb.Idx → EReal) (r : Fin 256) (n : Fin 2048) : EReal :=
  (∑ k : Fin 512, x (ix2 r k) * W (ix2 n k)) + b (ix1 n)

/-- The firing rate: the logistic of the pre-activation. -/
def rate (x : Sx.Idx → EReal) (W : Sw.Idx → EReal) (b : Sb.Idx → EReal) : Sr.Idx → EReal :=
  fun i => Ideal.logistic (affine x W b (i 0) (i 1))

/-- The spike train: at (r, t, n) the indicator of `u (r, t, n) < rate (r, n)`, as the number 0 or 1. -/
def spike (x : Sx.Idx → EReal) (W : Sw.Idx → EReal) (b : Sb.Idx → EReal) (u : Su.Idx → EReal) : Su.Idx → EReal :=
  fun i => (((Ideal.cmp .olt (u i) (rate x W b (ix2 (i 0) (i 2)))).toNat : ℝ) : EReal)

/-- A bit widened by zeros to 32 bits is nonnegative as a signed integer, and is the bit. -/
theorem widened_bit (c : BitVec 1) : (((c.setWidth 32).toInt : ℝ) : EReal) = (((c.toNat : ℝ)) : EReal) := by
  have h : ∀ c : BitVec 1, (c.setWidth 32).toInt = (c.toNat : ℤ) := by decide
  have h' : ((c.setWidth 32).toInt : ℝ) = (c.toNat : ℝ) := by exact_mod_cast h c
  rw [h']

/-- The binary word of 1.0 denotes the number one. -/
theorem one_word : Ideal.ofBits .f32 0x3F800000#32 = 1 := by
  simp [Ideal.ofBits, Ideal.ieee, -EReal.coe_mul]; norm_num

/-- The logistic function spelt out with the word of 1.0: `1 / (1 + e^(-z))`. -/
theorem logistic_spelt (z : EReal) :
    Ideal.div (Ideal.ofBits .f32 0x3F800000#32) (Ideal.ofBits .f32 0x3F800000#32 + Ideal.exp (-z)) = Ideal.logistic z := by
  rw [one_word]; rfl

end Cert.SpikeSpec

end
-- ==== Proof.RefIsSpec.lean ====
/-
  The reference program computes the specification.

  Its second result is, entry by entry, the quotient 1 / (1 + e^(-z)) of the pre-activation z: the inner product
  over the 512 input features plus the bias, the bias carried to every row by two broadcasts. That quotient is the
  logistic function, so the result is the rate. Its first result compares u with the rate carried along the time
  axis by two further broadcasts, and converts the comparison's bit to 0 or 1: the spike train.
-/
import proofs.«138941_j12463995093890_1_alg».proof.Proof.Gen.ReferenceIdeal.Read
import proofs.«138941_j12463995093890_1_alg».proof.Proof.Spec

noncomputable section

open scoped BigOperators

namespace Cert.ReferenceIdeal.RefValue

open Cert.ReferenceIdeal Cert.ReferenceIdeal.Gen Cert.ReferenceIdeal.Read
open Idealize.ShloMosaic Idealize.ShloMosaic.ValueIdx Cert.SpikeSpec

/-- The reference's rates are the specification's: the dot product read as a sum over the features, the bias read
    through its two broadcasts at the neuron's coordinate, and the spelt-out quotient recognised as the logistic. -/
theorem rates_eq (x0 : FVec Ideal S256x512 .f32) (x1 : FVec Ideal S2048x512 .f32) (x2 : FVec Ideal S2048 .f32) :
    val_main_v9 (F := Ideal) x0 x1 x2 = rate x0 x1 x2 := by
  funext i
  have el : ∀ k : Fin 512, lidx_main_v0 i k = ix2 (i 0) k := fun k =>
    funext fun a => Fin.ext (by match a with | ⟨0, _⟩ => rfl | ⟨1, _⟩ => rfl)
  have er : ∀ k : Fin 512, ridx_main_v0 i k = ix2 (i 1) k := fun k =>
    funext fun a => Fin.ext (by match a with | ⟨0, _⟩ => rfl | ⟨1, _⟩ => rfl)
  have eb : idx_main_v1 (idx_main_v2 i) = ix1 (i 1) :=
    funext fun a => Fin.ext (by match a with | ⟨0, _⟩ => rfl)
  rw [val_main_v9_apply, val_main_v8_apply, val_main_cst_0_apply, val_main_v7_apply, val_main_v6_apply,
    val_main_cst_apply, val_main_v5_apply, val_main_v4_apply, val_main_v3_apply, val_main_v0_apply,
    val_main_v2_apply, val_main_v1_apply]
  simp only [el, er, eb, Ideal.hostDivf_def, Ideal.addf_def, Ideal.hostUnary_exp_def, Ideal.hostNegf_def,
    Ideal.negf_def, Ideal.ofBits_def]
  exact logistic_spelt _

/-- The reference's spikes are the specification's: the rate is read through its two broadcasts at the sample's and
    the neuron's coordinates, whatever the time step, and the comparison's bit is converted to 0 or 1. -/
theorem spikes_eq (x0 : FVec Ideal S256x512 .f32) (x1 : FVec Ideal S2048x512 .f32) (x2 : FVec Ideal S2048 .f32)
    (x3 : FVec Ideal S256x100x2048 .f32) :
    val_main_v13 (F := Ideal) x0 x1 x2 x3 = spike x0 x1 x2 x3 := by
  funext i
  have e : idx_main_v10 (idx_main_v11 i) = ix2 (i 0) (i 2) :=
    funext fun a => Fin.ext (by match a with | ⟨0, _⟩ => rfl | ⟨1, _⟩ => rfl)
  rw [val_main_v13_apply, val_main_v12_apply, val_main_v11_apply, val_main_v10_apply, rates_eq, e]
  rfl

end Cert.ReferenceIdeal.RefValue

end
-- ==== Proof.KernelBlock.lean ====
/-
  One grid point's block of rates, entry by entry.

  At a grid point the body holds eight rows of x, all of W and all of b. Its rates block is the logistic of the
  matrix product of the eight rows with W transposed, accumulated from zero, plus the bias carried to every row:
  at row p and neuron q it is the logistic of the inner product of row p of the x block with row q of W, plus b q.
  The product is read as a sum over the 512 features by re-indexing the contraction through its one axis; the bias
  is read through the unit axis it gains and the broadcast over the rows.
-/
import proofs.«138941_j12463995093890_1_alg».proof.Proof.Gen.KernelIdeal.Value
import proofs.«138941_j12463995093890_1_alg».proof.Proof.Spec
import Idealize.ShloMosaic.Lib.ValueIdx
import Idealize.ShloMosaic.PureOps.Ideal.Laws

noncomputable section

open scoped BigOperators

namespace Cert.KernelIdeal.BlockValue

open Cert.KernelIdeal Cert.KernelIdeal.Gen
open Idealize.ShloMosaic Idealize.ShloMosaic.ValueIdx Cert.SpikeSpec

/-- The product's left operand is read at the output's row … -/
theorem lhs_rows_0 (i : S8x2048.Idx) (q : dot_S8x512_S2048x512_S8x2048_1_1_0_0_n_n.contr.Idx) :
    (dot_S8x512_S2048x512_S8x2048_1_1_0_0_n_n.lhsIdx i q 0).val = (i 0).val := by
  unfold DotDims.lhsIdx
  rw [dif_neg (show ¬(0 : Fin S8x512.rank) ∈ dot_S8x512_S2048x512_S8x2048_1_1_0_0_n_n.lhsBatch by decide), dif_pos (show (0 : Fin S8x512.rank) ∈ dot_S8x512_S2048x512_S8x2048_1_1_0_0_n_n.lhsNonContracting by decide)]
  rfl
/-- … and at the contracted feature; -/
theorem lhs_rows_1 (i : S8x2048.Idx) (q : dot_S8x512_S2048x512_S8x2048_1_1_0_0_n_n.contr.Idx) :
    (dot_S8x512_S2048x512_S8x2048_1_1_0_0_n_n.lhsIdx i q 1).val = (q ⟨0, by decide⟩).val :=
  dot_S8x512_S2048x512_S8x2048_1_1_0_0_n_n.lhsIdx_val_of_single rfl i q
/-- the right operand at the output's column, a row of W, … -/
theorem rhs_rows_0 (i : S8x2048.Idx) (q : dot_S8x512_S2048x512_S8x2048_1_1_0_0_n_n.contr.Idx) :
    (dot_S8x512_S2048x512_S8x2048_1_1_0_0_n_n.rhsIdx i q 0).val = (i 1).val := by
  unfold DotDims.rhsIdx
  rw [dif_neg (show ¬(0 : Fin S2048x512.rank) ∈ dot_S8x512_S2048x512_S8x2048_1_1_0_0_n_n.rhsBatch by decide), dif_pos (show (0 : Fin S2048x512.rank) ∈ dot_S8x512_S2048x512_S8x2048_1_1_0_0_n_n.rhsNonContracting by decide)]
  rfl
/-- … and at the contracted feature. -/
theorem rhs_rows_1 (i : S8x2048.Idx) (q : dot_S8x512_S2048x512_S8x2048_1_1_0_0_n_n.contr.Idx) :
    (dot_S8x512_S2048x512_S8x2048_1_1_0_0_n_n.rhsIdx i q 1).val = (q ⟨0, by decide⟩).val :=
  dot_S8x512_S2048x512_S8x2048_1_1_0_0_n_n.rhsIdx_val_of_single rfl i q

/-- The block's matrix product from the zero accumulator, at row `p` and neuron `q`: the inner product of row `p` of
    the x block with row `q` of W. -/
theorem product_at (x0 : Vec Ideal S8x512 .f32) (x1 : Vec Ideal S2048x512 .f32) (p : Fin 8) (q : Fin 2048) :
    matmul (F := Ideal) (φ₁ := .f32) (φ₂ := .f32) dot_S8x512_S2048x512_S8x2048_1_1_0_0_n_n none x0 x1 (constant (F := Ideal) S8x2048 .f32 0x00000000#32) (ix2 p q)
      = ∑ k : Fin 512, x0 (ix2 p k) * x1 (ix2 q k) := by
  simp only [matmul]
  rw [Ideal.matmul_constant_zero_apply, ← Equiv.sum_comp (ValueIdx.contrEquiv1 dot_S8x512_S2048x512_S8x2048_1_1_0_0_n_n 512 rfl rfl).symm]
  refine Finset.sum_congr rfl fun k _ => ?_
  have hk := ValueIdx.contrEquiv1_symm_val dot_S8x512_S2048x512_S8x2048_1_1_0_0_n_n 512 rfl rfl k
  have el : dot_S8x512_S2048x512_S8x2048_1_1_0_0_n_n.lhsIdx (ix2 p q) ((ValueIdx.contrEquiv1 dot_S8x512_S2048x512_S8x2048_1_1_0_0_n_n 512 rfl rfl).symm k) = ix2 p k := funext fun a => Fin.ext (by
    match a with
    | ⟨0, _⟩ => exact lhs_rows_0 _ _
    | ⟨1, _⟩ => exact (lhs_rows_1 _ _).trans hk)
  have er : dot_S8x512_S2048x512_S8x2048_1_1_0_0_n_n.rhsIdx (ix2 p q) ((ValueIdx.contrEquiv1 dot_S8x512_S2048x512_S8x2048_1_1_0_0_n_n 512 rfl rfl).symm k) = ix2 q k := funext fun a => Fin.ext (by
    match a with
    | ⟨0, _⟩ => exact rhs_rows_0 _ _
    | ⟨1, _⟩ => exact (rhs_rows_1 _ _).trans hk)
  rw [el, er]

/-- The bias, given a unit row axis and carried to all eight rows, at row `p` and neuron `q` is `b q`. -/
theorem bias_at (x2 : Vec Ideal S2048 .f32) (p : Fin 8) (q : Fin 2048) :
    broadcastTo S8x2048 (shapeCast S1x2048 x2 shapeCasts_S2048_S1x2048) broadcasts_S1x2048_S8x2048 (ix2 p q) = x2 (ix1 q) := by
  refine (broadcastTo_apply _ _ (ix2 p q) (ix2 (0 : Fin 1) q) (fun a => match a with
    | ⟨0, _⟩ => by show 0 = (if (1 : Nat) = 1 then 0 else p.val); rw [if_pos rfl]
    | ⟨1, _⟩ => by show q.val = (if (2048 : Nat) = 1 then 0 else q.val); rw [if_neg (by decide)])).trans ?_
  exact shapeCast_apply _ _ (ix2 (0 : Fin 1) q) (ix1 q) (by
    rw [Shape.rowMajor_val_one, Shape.rowMajor_val_two]; show q.val = 0 * 2048 + q.val; omega)

/-- The rates block at row `p` and neuron `q`: the logistic of the inner product plus the bias. -/
theorem rates_block_at (x0 : Vec Ideal S8x512 .f32) (x1 : Vec Ideal S2048x512 .f32) (x2 : Vec Ideal S2048 .f32)
    (p : Fin 8) (q : Fin 2048) :
    k0_pay1 x0 x1 x2 (ix2 p q) = Ideal.logistic ((∑ k : Fin 512, x0 (ix2 p k) * x1 (ix2 q k)) + x2 (ix1 q)) := by
  unfold k0_pay1
  show Ideal.logistic (matmul (F := Ideal) (φ₁ := .f32) (φ₂ := .f32) dot_S8x512_S2048x512_S8x2048_1_1_0_0_n_n none x0 x1 (constant (F := Ideal) S8x2048 .f32 0x00000000#32) (ix2 p q)
      + broadcastTo S8x2048 (shapeCast S1x2048 x2 shapeCasts_S2048_S1x2048) broadcasts_S1x2048_S8x2048 (ix2 p q)) = _
  rw [product_at, bias_at]

/-- The rates block against the whole arrays, with the block reads as hypotheses: if row `p` of the x block is row
    `r` of `X`, and the W and b blocks are `W` and `B` at neuron `q`, the block's entry at (p, q) is the
    specification's rate of (r, q). -/
theorem rates_of_blocks (X : Sx.Idx → EReal) (W : Sw.Idx → EReal) (B : Sb.Idx → EReal)
    (x0 : Vec Ideal S8x512 .f32) (x1 : Vec Ideal S2048x512 .f32) (x2 : Vec Ideal S2048 .f32)
    (p : Fin 8) (q : Fin 2048) (r : Fin 256)
    (h0 : ∀ k : Fin 512, x0 (ix2 p k) = X (ix2 r k))
    (h1 : ∀ k : Fin 512, x1 (ix2 q k) = W (ix2 q k))
    (h2 : x2 (ix1 q) = B (ix1 q)) :
    k0_pay1 x0 x1 x2 (ix2 p q) = rate X W B (ix2 r q) := by
  rw [rates_block_at]
  show Ideal.logistic ((∑ k : Fin 512, x0 (ix2 p k) * x1 (ix2 q k)) + x2 (ix1 q))
    = Ideal.logistic ((∑ k : Fin 512, X (ix2 r k) * W (ix2 q k)) + B (ix1 q))
  rw [h2, Finset.sum_congr rfl fun k _ => by rw [h0 k, h1 k]]

/-- The spikes block against the whole arrays, with the block reads as hypotheses: the block's entry at `y` compares
    the u block there with the rates block at `y`'s row and neuron, widens the bit and reads it signed; if those two
    are `U` at `i` and the specification's rate at `i`'s sample and neuron, the entry is the specification's spike
    at `i`. -/
theorem spikes_of_blocks (X : Sx.Idx → EReal) (W : Sw.Idx → EReal) (B : Sb.Idx → EReal) (U : Su.Idx → EReal)
    (x0 : Vec Ideal S8x512 .f32) (x1 : Vec Ideal S2048x512 .f32) (x2 : Vec Ideal S2048 .f32)
    (x3 : Vec Ideal S8x100x2048 .f32) (y : S8x100x2048.Idx) (i : Su.Idx)
    (hu : x3 (Value.ix4_0 y) = U i)
    (hr : k0_pay1 x0 x1 x2 (Value.ix4_1 y) = rate X W B (ix2 (i 0) (i 2))) :
    Value.E4 x3 x0 x1 x2 y = spike X W B U i := by
  show ((((Ideal.cmp .olt (x3 (Value.ix4_0 y)) (k0_pay1 x0 x1 x2 (Value.ix4_1 y))).setWidth 32).toInt : ℝ) : EReal)
    = (((Ideal.cmp .olt (U i) (rate X W B (ix2 (i 0) (i 2)))).toNat : ℝ) : EReal)
  rw [widened_bit, hu, hr]

end Cert.KernelIdeal.BlockValue

end
-- ==== Proof.KernelArrays.lean ====
/-
  From grid points to whole arrays.

  The grid has 32 points; point t handles the eight samples 8 t … 8 t + 7. It reads those eight rows of x and of u,
  all of W and all of b, and writes those eight rows of the rates and of the spikes. So what a point writes back is
  the restriction of the specification's rate and spike functions to its eight rows: a row p of the block is row
  8 t + p of the arrays, W and b are read where they lie, and the time and neuron coordinates pass through
  unchanged. The 32 blocks cover all 256 rows (row r lies in the block of point r / 8), hence each output array
  ends as the specification's function of the argument arrays.
-/
import proofs.«138941_j12463995093890_1_alg».proof.Proof.Gen.KernelIdeal.Value
import proofs.«138941_j12463995093890_1_alg».proof.Proof.KernelBlock
import proofs.«138941_j12463995093890_1_alg».proof.Proof.Spec

noncomputable section

open scoped BigOperators

namespace Cert.KernelIdeal.ArrayValue

open Cert.KernelIdeal Cert.KernelIdeal.Gen Idealize.ShloMosaic Idealize.ShloMosaic.TcCoe Idealize.SL.Sem
open Idealize.ShloMosaic.Pipeline (Dat)
open Idealize.ShloMosaic.ValueIdx Cert.SpikeSpec Cert.KernelIdeal.BlockValue

variable (m : (ℓ : Loc nD τ sig) → Buf (Elt Ideal) ℓ) (ρ : Dev nD → PrngReg)

theorem zeros1 : (![0] : Fin 1 → Nat) = fun _ => 0 := funext fun a => by fin_cases a <;> rfl
theorem zeros2 : (![0, 0] : Fin 2 → Nat) = fun _ => 0 := funext fun a => by fin_cases a <;> rfl
theorem zeros3 : (![0, 0, 0] : Fin 3 → Nat) = fun _ => 0 := funext fun a => by fin_cases a <;> rfl

/-- The block indices over the grid: the x, u, spike and rate windows move together along the sample axis and sit
    at block 0 on every other axis; W and b stay at block 0; the sample block index stays below 32. -/
theorem block_indices : ∀ t : Fin cfg0.N,
    win0_0.index t (0 : Fin 2) = win0_5.index t (0 : Fin 2) ∧ win0_0.index t (1 : Fin 2) = 0
    ∧ win0_1.index t (0 : Fin 2) = 0 ∧ win0_1.index t (1 : Fin 2) = 0
    ∧ win0_2.index t (0 : Fin 1) = 0
    ∧ win0_3.index t (0 : Fin 3) = win0_5.index t (0 : Fin 2) ∧ win0_3.index t (1 : Fin 3) = 0 ∧ win0_3.index t (2 : Fin 3) = 0
    ∧ win0_4.index t (0 : Fin 3) = win0_5.index t (0 : Fin 2) ∧ win0_4.index t (1 : Fin 3) = 0 ∧ win0_4.index t (2 : Fin 3) = 0
    ∧ win0_5.index t (1 : Fin 2) = 0 ∧ win0_5.index t (0 : Fin 2) ≤ 31 :=
  (by decide +kernel : ∀ t : Fin grid0.N, _)

/-- Every one of the 32 sample blocks of the rates is some point's. -/
theorem rate_blocks_onto : ∀ q0 : Fin 32, ∃ t : Fin cfg0.N, win0_5.index t = ![q0.val, 0] :=
  (by decide +kernel : ∀ q0 : Fin 32, ∃ t : Fin grid0.N, win0_5.index t = ![q0.val, 0])

/-- Every one of the 32 sample blocks of the spikes is some point's. -/
theorem spike_blocks_onto : ∀ q0 : Fin 32, ∃ t : Fin cfg0.N, win0_4.index t = ![q0.val, 0, 0] :=
  (by decide +kernel : ∀ q0 : Fin 32, ∃ t : Fin grid0.N, win0_4.index t = ![q0.val, 0, 0])

/-- At point `t` the rates block at row `p` and neuron `q` is the specification's rate of sample `r = 8 t + p` and
    neuron `q`, over the argument arrays: the x block's row `p` is row `r` of x, and W and b are whole. -/
theorem rates_point (c : Dev nD) (t : Fin cfg0.N) (p : Fin 8) (q : Fin 2048) (r : Fin 256)
    (hr : r.val = win0_5.index t (0 : Fin 2) * 8 + p.val) :
    k0_pay1 (iblk m c 0 t) (iblk m c 1 t) (iblk m c 2 t) (ix2 p q)
      = rate (V m c main_arg0) (V m c main_arg1) (V m c main_arg2) (ix2 r q) := by
  obtain ⟨e00, e01, e10, e11, e20, -⟩ := block_indices t
  refine rates_of_blocks (V m c main_arg0) (V m c main_arg1) (V m c main_arg2)
    (iblk m c 0 t) (iblk m c 1 t) (iblk m c 2 t) p q r ?_ ?_ ?_
  · intro k
    show V m c main_arg0 (((cfg0.win 0).blk t).view.emb (ix2 p k)) = _
    congr 1; funext a; apply Fin.ext
    match a with
    | ⟨0, _⟩ => show win0_0.index t (0 : Fin 2) * 8 + 1 * p.val = r.val; omega
    | ⟨1, _⟩ => show win0_0.index t (1 : Fin 2) * 512 + 1 * k.val = k.val; omega
  · intro k
    show V m c main_arg1 (((cfg0.win 1).blk t).view.emb (ix2 q k)) = _
    congr 1; funext a; apply Fin.ext
    match a with
    | ⟨0, _⟩ => show win0_1.index t (0 : Fin 2) * 2048 + 1 * q.val = q.val; omega
    | ⟨1, _⟩ => show win0_1.index t (1 : Fin 2) * 512 + 1 * k.val = k.val; omega
  · show V m c main_arg2 (((cfg0.win 2).blk t).view.emb (ix1 q)) = _
    congr 1; funext a; apply Fin.ext
    match a with
    | ⟨0, _⟩ => show win0_2.index t (0 : Fin 1) * 2048 + 1 * q.val = q.val; omega

/-! ## The rates -/

/-- What point `t` writes back to the rates is block `t` of the specification's rates. -/
theorem rates_flushed (c : Dev nD) (t : Fin cfg0.N) :
    (dats m 0 c).flushed 5 t
      = ((cfg0.win 5).blk t).view.read (Elt Ideal) (rate (V m c main_arg0) (V m c main_arg1) (V m c main_arg2)) := by
  rw [Value.flushed5]
  unfold out0_5
  rw [View.canon_unit_zero zeros2]
  simp only [View.ld_unit_zero (S := S8x512) zeros2, View.ld_unit_zero (S := S2048x512) zeros2, View.ld_unit_zero (S := S2048) zeros1]
  obtain ⟨-, -, -, -, -, -, -, -, -, -, -, e51, -⟩ := block_indices t
  funext j
  show k0_pay1 (iblk m c 0 t) (iblk m c 1 t) (iblk m c 2 t) j
    = rate (V m c main_arg0) (V m c main_arg1) (V m c main_arg2) (((cfg0.win 5).blk t).view.emb j)
  have hj : (j : S8x2048.Idx) = ix2 (j 0) (j 1) := eq_ix2 j
  have he : ((cfg0.win 5).blk t).view.emb j = ix2 (((cfg0.win 5).blk t).view.emb j 0) (j 1) := by
    funext a; apply Fin.ext
    match a with
    | ⟨0, _⟩ => rfl
    | ⟨1, _⟩ => show win0_5.index t (1 : Fin 2) * 2048 + 1 * (j 1).val = (j 1).val; omega
  refine (congrArg (k0_pay1 (iblk m c 0 t) (iblk m c 1 t) (iblk m c 2 t)) hj).trans ?_
  refine Eq.trans ?_ (congrArg (rate (V m c main_arg0) (V m c main_arg1) (V m c main_arg2)) he.symm)
  refine rates_point m c t (j 0) (j 1) (((cfg0.win 5).blk t).view.emb j 0) ?_
  show win0_5.index t (0 : Fin 2) * 8 + 1 * (j 0).val = win0_5.index t (0 : Fin 2) * 8 + (j 0).val
  omega

/-- An index of the rates lies in point `t`'s block iff each coordinate lies in the block's range on its axis. -/
theorem rates_mem_blk (t : Fin cfg0.N) (i : S256x2048.Idx) :
    i ∈ ((cfg0.win 5).blk t).view.set ↔ ∀ a : Fin 2, win0_5.index t a * S8x2048.size a ≤ (i a).val ∧ (i a).val < win0_5.index t a * S8x2048.size a + S8x2048.size a := by
  show i ∈ ((View.whole main_v0_1).slice (win0_5.rect t)).set ↔ _
  rw [View.set_slice_whole, Rect.mem_set_unit]
  exact Iff.rfl

/-- Every index of the rates is in some point's block: sample `r` in the block of point `r / 8`. -/
theorem rates_cover (i : S256x2048.Idx) :
    ∃ t : Fin cfg0.N, (cfg0.win 5).flush t = true ∧ i ∈ ((cfg0.win 5).blk t).view.set := by
  have hi0 : (i 0).val < 256 := (i 0).isLt
  have hi1 : (i 1).val < 2048 := (i 1).isLt
  obtain ⟨t, ht⟩ := rate_blocks_onto ⟨(i 0).val / 8, by omega⟩
  have q0 : win0_5.index t (0 : Fin 2) = (i 0).val / 8 := congrFun ht 0
  have q1 : win0_5.index t (1 : Fin 2) = 0 := congrFun ht 1
  refine ⟨t, flush0_5 t, ?_⟩
  rw [rates_mem_blk]
  intro a
  match a with
  | ⟨0, _⟩ => show win0_5.index t (0 : Fin 2) * 8 ≤ (i 0).val ∧ (i 0).val < win0_5.index t (0 : Fin 2) * 8 + 8; omega
  | ⟨1, _⟩ => show win0_5.index t (1 : Fin 2) * 2048 ≤ (i 1).val ∧ (i 1).val < win0_5.index t (1 : Fin 2) * 2048 + 2048; omega

/-- The rates array after the run is the specification's rates of the argument arrays. -/
theorem rates_final (c : Dev nD) :
    (dats m 0 c).arrAt 5 cfg0.N = rate (V m c main_arg0) (V m c main_arg1) (V m c main_arg2) :=
  (dats m 0 c).arrAt_eq_of_cover 5 _ (fun t _ => rates_flushed m c t) rates_cover

/-! ## The spikes -/

/-- What point `t` writes back to the spikes is block `t` of the specification's spikes: the block compares the u
    block, entry by entry, with the rates block read at the entry's row and neuron, and converts the widened bit. -/
theorem spikes_flushed (c : Dev nD) (t : Fin cfg0.N) :
    (dats m 0 c).flushed 4 t
      = ((cfg0.win 4).blk t).view.read (Elt Ideal)
          (spike (V m c main_arg0) (V m c main_arg1) (V m c main_arg2) (V m c main_arg3)) := by
  rw [Value.flushed4]
  unfold out0_4
  simp only [View.ld_unit_zero (S := S8x512) zeros2, View.ld_unit_zero (S := S2048x512) zeros2,
    View.ld_unit_zero (S := S2048) zeros1, View.ld_unit_zero (S := S8x100x2048) zeros3]
  rw [funext (Value.canon4_eq (iblk m c 3 t) (iblk m c 0 t) (iblk m c 1 t) (iblk m c 2 t))]
  obtain ⟨-, -, -, -, -, e30, e31, e32, e40, e41, e42, -, hle⟩ := block_indices t
  funext j
  refine spikes_of_blocks (V m c main_arg0) (V m c main_arg1) (V m c main_arg2) (V m c main_arg3)
    (iblk m c 0 t) (iblk m c 1 t) (iblk m c 2 t) (iblk m c 3 t) j (((cfg0.win 4).blk t).view.emb j) ?_ ?_
  · show V m c main_arg3 (((cfg0.win 3).blk t).view.emb (Value.ix4_0 j)) = _
    congr 1; funext a; apply Fin.ext
    match a with
    | ⟨0, _⟩ => show win0_3.index t (0 : Fin 3) * 8 + 1 * (j 0).val = win0_4.index t (0 : Fin 3) * 8 + 1 * (j 0).val; omega
    | ⟨1, _⟩ => show win0_3.index t (1 : Fin 3) * 100 + 1 * (j 1).val = win0_4.index t (1 : Fin 3) * 100 + 1 * (j 1).val; omega
    | ⟨2, _⟩ => show win0_3.index t (2 : Fin 3) * 2048 + 1 * (j 2).val = win0_4.index t (2 : Fin 3) * 2048 + 1 * (j 2).val; omega
  · have hidx : (Value.ix4_1 j : S8x2048.Idx) = ix2 (j 0) (j 2) := by
      funext a; apply Fin.ext
      match a with
      | ⟨0, _⟩ => rfl
      | ⟨1, _⟩ => rfl
    have hn : ((cfg0.win 4).blk t).view.emb j 2 = j 2 := by
      apply Fin.ext
      show win0_4.index t (2 : Fin 3) * 2048 + 1 * (j 2).val = (j 2).val; omega
    refine (congrArg (k0_pay1 (iblk m c 0 t) (iblk m c 1 t) (iblk m c 2 t)) hidx).trans ?_
    rw [hn]
    refine rates_point m c t (j 0) (j 2) (((cfg0.win 4).blk t).view.emb j 0) ?_
    show win0_4.index t (0 : Fin 3) * 8 + 1 * (j 0).val = win0_5.index t (0 : Fin 2) * 8 + (j 0).val
    omega

/-- An index of the spikes lies in point `t`'s block iff each coordinate lies in the block's range on its axis. -/
theorem spikes_mem_blk (t : Fin cfg0.N) (i : S256x100x2048.Idx) :
    i ∈ ((cfg0.win 4).blk t).view.set ↔ ∀ a : Fin 3, win0_4.index t a * S8x100x2048.size a ≤ (i a).val ∧ (i a).val < win0_4.index t a * S8x100x2048.size a + S8x100x2048.size a := by
  show i ∈ ((View.whole main_v0_0).slice (win0_4.rect t)).set ↔ _
  rw [View.set_slice_whole, Rect.mem_set_unit]
  exact Iff.rfl

/-- Every index of the spikes is in some point's block: sample `r` in the block of point `r / 8`. -/
theorem spikes_cover (i : S256x100x2048.Idx) :
    ∃ t : Fin cfg0.N, (cfg0.win 4).flush t = true ∧ i ∈ ((cfg0.win 4).blk t).view.set := by
  have hi0 : (i 0).val < 256 := (i 0).isLt
  have hi1 : (i 1).val < 100 := (i 1).isLt
  have hi2 : (i 2).val < 2048 := (i 2).isLt
  obtain ⟨t, ht⟩ := spike_blocks_onto ⟨(i 0).val / 8, by omega⟩
  have q0 : win0_4.index t (0 : Fin 3) = (i 0).val / 8 := congrFun ht 0
  have q1 : win0_4.index t (1 : Fin 3) = 0 := congrFun ht 1
  have q2 : win0_4.index t (2 : Fin 3) = 0 := congrFun ht 2
  refine ⟨t, flush0_4 t, ?_⟩
  rw [spikes_mem_blk]
  intro a
  match a with
  | ⟨0, _⟩ => show win0_4.index t (0 : Fin 3) * 8 ≤ (i 0).val ∧ (i 0).val < win0_4.index t (0 : Fin 3) * 8 + 8; omega
  | ⟨1, _⟩ => show win0_4.index t (1 : Fin 3) * 100 ≤ (i 1).val ∧ (i 1).val < win0_4.index t (1 : Fin 3) * 100 + 100; omega
  | ⟨2, _⟩ => show win0_4.index t (2 : Fin 3) * 2048 ≤ (i 2).val ∧ (i 2).val < win0_4.index t (2 : Fin 3) * 2048 + 2048; omega

/-- The spikes array after the run is the specification's spikes of the argument arrays. -/
theorem spikes_final (c : Dev nD) :
    (dats m 0 c).arrAt 4 cfg0.N
      = spike (V m c main_arg0) (V m c main_arg1) (V m c main_arg2) (V m c main_arg3) :=
  (dats m 0 c).arrAt_eq_of_cover 4 _ (fun t _ => spikes_flushed m c t) spikes_cover

/-! ## The run -/

/-- Every weakly fair execution of the idealized kernel terminates with the spikes and the rates at the
    specification's functions of the argument arrays, and the arguments unchanged. -/
theorem run : θ_run defs (onTc (τ := τ) (main (F := Ideal))) ⟨m, fun _ => 0, ρ⟩ fun r => ∀ c : Dev nD,
      r.2.mem ((c : Thread nD τ).loc main_v0_0)
        = spike (m ((c : Thread nD τ).loc main_arg0)) (m ((c : Thread nD τ).loc main_arg1)) (m ((c : Thread nD τ).loc main_arg2)) (m ((c : Thread nD τ).loc main_arg3))
      ∧ r.2.mem ((c : Thread nD τ).loc main_v0_1)
        = rate (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (spikes_final m c), (h c).2.1.trans (rates_final m c), (h c).2.2⟩)
    (Value.run_blocks m ρ)

end Cert.KernelIdeal.ArrayValue

end
-- ==== Proof.lean ====
/-
  A spike encoder against its reference, over the extended reals.

  Both programs take x [256, 512], W [2048, 512], b [2048] and u [256, 100, 2048] and return the firing rates
  [256, 2048] and the spike train [256, 100, 2048]. The rate of sample r and neuron n is the logistic of the inner
  product of row r of x with row n of W plus b n; the spike at (r, t, n) is 1 when u (r, t, n) is strictly below
  that rate and 0 otherwise (Proof/Spec.lean).

  The kernel walks the samples eight at a time over a grid of 32 points. At a point it multiplies its eight rows
  of x with W transposed from a zero accumulator, adds the bias, applies the logistic as one operation and stores
  the eight rows of rates; it then compares its eight rows of u with those rates carried along the time axis,
  widens the comparison's bit to 32 bits and converts it as a signed integer (Proof/KernelBlock.lean for a block,
  Proof/KernelArrays.lean for the whole arrays). The reference forms the same inner products in one product,
  spells the logistic as 1 / (1 + e^(-z)) and converts the comparison's bit directly (Proof/RefIsSpec.lean).

  The two agree entry by entry with no condition on the inputs: a sum over the 512 features is the same sum
  whichever way it is tiled, the spelt-out quotient is the logistic function at every extended real, and a bit
  widened by zeros is nonnegative, so reading it signed or unsigned gives the same number. The rewriting pass
  changed nothing in the kernel, so there is nothing to preserve; the frames are the programs' own runs.
-/
import proofs.«138941_j12463995093890_1_alg».proof.Defs
import proofs.«138941_j12463995093890_1_alg».proof.Proof.Gen.Kernel
import proofs.«138941_j12463995093890_1_alg».proof.Proof.Gen.Kernel.Skeleton
import proofs.«138941_j12463995093890_1_alg».proof.Proof.Gen.Kernel.Launch
import proofs.«138941_j12463995093890_1_alg».proof.Proof.Gen.Kernel.Points
import proofs.«138941_j12463995093890_1_alg».proof.Proof.Gen.Kernel.Frame
import proofs.«138941_j12463995093890_1_alg».proof.Proof.Gen.KernelIdeal
import proofs.«138941_j12463995093890_1_alg».proof.Proof.Gen.KernelIdeal.Skeleton
import proofs.«138941_j12463995093890_1_alg».proof.Proof.Gen.KernelIdeal.Launch
import proofs.«138941_j12463995093890_1_alg».proof.Proof.Gen.KernelIdeal.Points
import proofs.«138941_j12463995093890_1_alg».proof.Proof.Gen.KernelIdeal.Frame
import proofs.«138941_j12463995093890_1_alg».proof.Proof.Gen.ReferenceIdeal
import proofs.«138941_j12463995093890_1_alg».proof.Proof.Gen.Pre_finite_inputs
import proofs.«138941_j12463995093890_1_alg».proof.Proof.Gen.KernelIdeal.Value
import proofs.«138941_j12463995093890_1_alg».proof.Proof.Gen.ReferenceIdeal.Run
import proofs.«138941_j12463995093890_1_alg».proof.Proof.Gen.ReferenceIdeal.Read
import proofs.«138941_j12463995093890_1_alg».proof.Proof.Spec
import proofs.«138941_j12463995093890_1_alg».proof.Proof.RefIsSpec
import proofs.«138941_j12463995093890_1_alg».proof.Proof.KernelBlock
import proofs.«138941_j12463995093890_1_alg».proof.Proof.KernelArrays
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- The reference's frame is its run with the two results dropped. -/
theorem frame_reference_ideal : Cert.frame_ReferenceIdeal := fun m ρ _ =>
  (θ_run Cert.ReferenceIdeal.defs _ _).mono (fun _ h c => (h c).2.2) (Cert.ReferenceIdeal.Value.run (F := Ideal) m ρ)

/-- Both programs end with the spikes and the rates at the specification's functions of arguments that agree. -/
theorem algebraic : Cert.algebraic_KernelIdeal_ReferenceIdeal := by
  intro m ρ m' ρ' _ hagree
  refine ⟨_, _, Cert.KernelIdeal.ArrayValue.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [(hagree c).1, (hagree c).2.1, (hagree c).2.2.1, (hagree c).2.2.2]
    exact (Cert.ReferenceIdeal.Read.val_main_v13_eq _ _ _ _).trans (Cert.ReferenceIdeal.RefValue.spikes_eq _ _ _ _)
  · rw [(hagree c).1, (hagree c).2.1, (hagree c).2.2.1]
    exact (Cert.ReferenceIdeal.Read.val_main_v9_eq _ _ _).trans (Cert.ReferenceIdeal.RefValue.rates_eq _ _ _)

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
